-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S100000x3 .f32) (main_arg1 : FVec F S100000x1 .f32) (main_arg2 : FVec F S1 .f32) (main_arg3 : FVec F S3 .f32) (main_arg4 : IVec S3200000 32) (main_arg5 : IVec S3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S3x100000 : Shape := ⟨2, ![3, 100000]⟩
abbrev S1x100000 : Shape := ⟨2, ![1, 100000]⟩
abbrev S_ : Shape := ⟨0, ![]⟩
abbrev S3200000x1 : Shape := ⟨2, ![3200000, 1]⟩
abbrev S3x3200000 : Shape := ⟨2, ![3, 3200000]⟩
abbrev S1x3200000 : Shape := ⟨2, ![1, 3200000]⟩
abbrev S1x1 : Shape := ⟨2, ![1, 1]⟩
abbrev S3x1 : Shape := ⟨2, ![3, 1]⟩
abbrev S4x3200000 : Shape := ⟨2, ![4, 3200000]⟩
abbrev S3x80000 : Shape := ⟨2, ![3, 80000]⟩
abbrev S1x80000 : Shape := ⟨2, ![1, 80000]⟩
abbrev S4x80000 : Shape := ⟨2, ![4, 80000]⟩
abbrev S80000 : Shape := ⟨1, ![80000]⟩
abbrev S3200000x4 : Shape := ⟨2, ![3200000, 4]⟩
abbrev S100000x4 : Shape := ⟨2, ![100000, 4]⟩

abbrev nBuf : Space → Nat
  | .hbm => 54
  | .vmem => 10
  | .smem => 0
  | _ => 0

abbrev bufTy : (tb : Table) → Fin (tcTables nBuf tb) → BufTy
  | .hbm, ⟨0, _⟩ => ⟨S100000x3, .f32⟩
  | .hbm, ⟨1, _⟩ => ⟨S100000x1, .f32⟩
  | .hbm, ⟨2, _⟩ => ⟨S1, .f32⟩
  | .hbm, ⟨3, _⟩ => ⟨S3, .f32⟩
  | .hbm, ⟨4, _⟩ => ⟨S3200000, .i32⟩
  | .hbm, ⟨5, _⟩ => ⟨S3200000, .i32⟩
  | .hbm, ⟨6, _⟩ => ⟨S3x100000, .f32⟩
  | .hbm, ⟨7, _⟩ => ⟨S1x100000, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3x3200000, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3x3200000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S1x3200000, .f32⟩
  | .hbm, ⟨35, _⟩ => ⟨S1x1, .f32⟩
  | .hbm, ⟨36, _⟩ => ⟨S3x1, .f32⟩
  | .hbm, ⟨37, _⟩ => ⟨S4x3200000, .f32⟩
  | .hbm, ⟨38, _⟩ => ⟨S3200000x4, .f32⟩
  | .hbm, ⟨39, _⟩ => ⟨S_, .f32⟩
  | .hbm, ⟨40, _⟩ => ⟨S100000x4, .f32⟩
  | .hbm, ⟨41, _⟩ => ⟨S3200000x1, .i32⟩
  | .hbm, ⟨42, _⟩ => ⟨S100000x4, .f32⟩
  | .hbm, ⟨43, _⟩ => ⟨S_, .f32⟩
  | .hbm, ⟨44, _⟩ => ⟨S3200000x1, .f32⟩
  | .hbm, ⟨45, _⟩ => ⟨S_, .f32⟩
  | .hbm, ⟨46, _⟩ => ⟨S100000x1, .f32⟩
  | .hbm, ⟨47, _⟩ => ⟨S3200000x1, .i32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x4, .f32⟩
  | .hbm, ⟨53, _⟩ => ⟨S100000x4, .f32⟩
  | .local _ .vmem, ⟨0, _⟩ => ⟨S3x80000, .f32⟩
  | .local _ .vmem, ⟨1, _⟩ => ⟨S3x80000, .f32⟩
  | .local _ .vmem, ⟨2, _⟩ => ⟨S3x80000, .f32⟩
  | .local _ .vmem, ⟨3, _⟩ => ⟨S3x80000, .f32⟩
  | .local _ .vmem, ⟨4, _⟩ => ⟨S1x80000, .f32⟩
  | .local _ .vmem, ⟨5, _⟩ => ⟨S1x80000, .f32⟩
  | .local _ .vmem, ⟨6, _⟩ => ⟨S1x1, .f32⟩
  | .local _ .vmem, ⟨7, _⟩ => ⟨S3x1, .f32⟩
  | .local _ .vmem, ⟨8, _⟩ => ⟨S4x80000, .f32⟩
  | .local _ .vmem, ⟨9, _⟩ => ⟨S4x80000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x80000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S100000x3_S3x100000_1_0 : S100000x3.Transposes [1, 0] S3x100000
  transposes_S100000x1_S1x100000_1_0 : S100000x1.Transposes [1, 0] S1x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S1_S1x1 : S1.ShapeCasts S1x1
  shapeCasts_S3_S3x1 : S3.ShapeCasts S3x1
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  reduces_S3x80000_S80000 : S3x80000.Reduces [0] S80000
  shapeCasts_S80000_S1x80000 : S80000.ShapeCasts S1x80000
  broadcasts_S1x80000_S3x80000 : S1x80000.Broadcasts S3x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x80000 : S1x1.Broadcasts S1x80000
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x80000 : S3x1.Broadcasts S3x80000
  inb_S4x80000_S1x80000_0_0 : ∀ a, (![0, 0] : Fin 2 → Nat) a + S1x80000.size a ≤ S4x80000.size a
  inb_S4x80000_S3x80000_1_0 : ∀ a, (![1, 0] : Fin 2 → Nat) a + S3x80000.size a ≤ S4x80000.size a
  transposes_S4x3200000_S3200000x4_1_0 : S4x3200000.Transposes [1, 0] S3200000x4
  bcast_S_S100000x4 : S_.BroadcastsInDim S100000x4 (![] : Fin 0 → Fin S100000x4.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  gather_S3x100000_S3200000x1_S3x3200000_0_1_n_n_1_1_31_wf : GatherDims.WF S3x100000 S3200000x1 S3x3200000 [0] [1] [] [1] [] 1 ![3, 1]
  gather_S1x100000_S3200000x1_S1x3200000_0_1_n_n_1_1_11_wf : GatherDims.WF S1x100000 S3200000x1 S1x3200000 [0] [1] [] [1] [] 1 ![1, 1]
  scatter_S100000x4_S3200000x1_S3200000x4_1_0_0_1_wf : ScatterDims.WF S100000x4 S3200000x1 S3200000x4 [1] [0] [0] 1
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x3200000.size a
  hwx0_0 : ∀ i : grid0.Coords, EltTy.bits .f32 = 32 ∨ (Rect.block (s := S3x3200000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x3200000.size a
  hwx0_1 : ∀ i : grid0.Coords, EltTy.bits .f32 = 32 ∨ (Rect.block (s := S3x3200000) S3x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x3200000.size a
  hwx0_2 : ∀ i : grid0.Coords, EltTy.bits .f32 = 32 ∨ (Rect.block (s := S1x3200000) S1x80000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x80000.size a ≤ S4x3200000.size a
  hwx0_5 : ∀ i : grid0.Coords, EltTy.bits .f32 = 32 ∨ (Rect.block (s := S4x3200000) S4x80000.size (cc0_transform_5 i) (hinb0_5 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def gather_S1x100000_S3200000x1_S1x3200000_0_1_n_n_1_1_11 : GatherDims S1x100000 S3200000x1 S1x3200000 where
  offsetDims := [0]
  collapsedSliceDims := [1]
  operandBatchingDims := []
  startIndicesBatchingDims := []
  startIndexMap := [1]
  indexVectorDim := 1
  sliceSizes := ![1, 1]
  wf := gather_S1x100000_S3200000x1_S1x3200000_0_1_n_n_1_1_11_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_v8) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4x80000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x1 : Shape := ⟨2, ![100000, 1]⟩
abbrev S1 : Shape := ⟨1, ![1]⟩
abbrev S3 : Shape := ⟨1, ![3]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S1x1 : Shape := ⟨2, ![1, 1]⟩
abbrev S1x3 : Shape := ⟨2, ![1, 3]⟩
abbrev S3200000x4 : Shape := ⟨2, ![3200000, 4]⟩
abbrev S100000x4 : Shape := ⟨2, ![100000, 4]⟩

abbrev nBuf : Space → Nat
  | .hbm => 68
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x1, .f32⟩
  | .hbm, ⟨2, _⟩ => ⟨S1, .f32⟩
  | .hbm, ⟨3, _⟩ => ⟨S3, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x3, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x3, .f32⟩
  | .hbm, ⟨24, _⟩ => ⟨S3200000x3, .f32⟩
  | .hbm, ⟨25, _⟩ => ⟨S3200000x3, .f32⟩
  | .hbm, ⟨26, _⟩ => ⟨S_, .f32⟩
  | .hbm, ⟨27, _⟩ => ⟨S3200000, .f32⟩
  | .hbm, ⟨28, _⟩ => ⟨S3200000x1, .f32⟩
  | .hbm, ⟨29, _⟩ => ⟨S3200000x1, .f32⟩
  | .hbm, ⟨30, _⟩ => ⟨S_, .f32⟩
  | .hbm, ⟨31, _⟩ => ⟨S3200000x1, .f32⟩
  | .hbm, ⟨32, _⟩ => ⟨S3200000x1, .f32⟩
  | .hbm, ⟨33, _⟩ => ⟨S3200000x3, .f32⟩
  | .hbm, ⟨34, _⟩ => ⟨S3200000x3, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x1, .f32⟩
  | .hbm, ⟨44, _⟩ => ⟨S1x1, .f32⟩
  | .hbm, ⟨45, _⟩ => ⟨S3200000x1, .f32⟩
  | .hbm, ⟨46, _⟩ => ⟨S3200000x1, .f32⟩
  | .hbm, ⟨47, _⟩ => ⟨S3200000x3, .f32⟩
  | .hbm, ⟨48, _⟩ => ⟨S3200000x3, .f32⟩
  | .hbm, ⟨49, _⟩ => ⟨S1x3, .f32⟩
  | .hbm, ⟨50, _⟩ => ⟨S3200000x3, .f32⟩
  | .hbm, ⟨51, _⟩ => ⟨S3200000x3, .f32⟩
  | .hbm, ⟨52, _⟩ => ⟨S3200000x4, .f32⟩
  | .hbm, ⟨53, _⟩ => ⟨S_, .f32⟩
  | .hbm, ⟨54, _⟩ => ⟨S100000x4, .f32⟩
  | .hbm, ⟨55, _⟩ => ⟨S3200000x1, .i32⟩
  | .hbm, ⟨56, _⟩ => ⟨S100000x4, .f32⟩
  | .hbm, ⟨57, _⟩ => ⟨S_, .f32⟩
  | .hbm, ⟨58, _⟩ => ⟨S3200000x1, .f32⟩
  | .hbm, ⟨59, _⟩ => ⟨S_, .f32⟩
  | .hbm, ⟨60, _⟩ => ⟨S100000x1, .f32⟩
  | .hbm, ⟨61, _⟩ => ⟨S3200000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x4, .f32⟩
  | .hbm, ⟨67, _⟩ => ⟨S100000x4, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S3_S1x3_1 : S3.BroadcastsInDim S1x3 (![1] : Fin 1 → Fin S1x3.rank)
  bcast_S1x3_S3200000x3_0_1 : S1x3.BroadcastsInDim S3200000x3 (![0, 1] : Fin 2 → Fin S3200000x3.rank)
  concatenates_S3200000x1_S3200000x3_S3200000x4_d1 : Shape.Concatenates [S3200000x1, S3200000x3] S3200000x4 1
  bcast_S_S100000x4 : S_.BroadcastsInDim S100000x4 (![] : Fin 0 → Fin S100000x4.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  gather_S100000x3_S3200000x1_S3200000x3_1_0_n_n_0_1_13_wf : GatherDims.WF S100000x3 S3200000x1 S3200000x3 [1] [0] [] [0] [] 1 ![1, 3]
  gather_S100000x1_S3200000x1_S3200000x1_1_0_n_n_0_1_11_wf : GatherDims.WF S100000x1 S3200000x1 S3200000x1 [1] [0] [] [0] [] 1 ![1, 1]
  scatter_S100000x4_S3200000x1_S3200000x4_1_0_0_1_wf : ScatterDims.WF S100000x4 S3200000x1 S3200000x4 [1] [0] [0] 1
  scatter_S100000x1_S3200000x1_S3200000x1_1_0_0_1_wf : ScatterDims.WF S100000x1 S3200000x1 S3200000x1 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Spec.lean ====
/-
  The per-edge message both programs compute, written once over the argument arrays.

  For edge `e` the two endpoints are read through a column of start indices (one per edge); a start index names the
  node `min (toNat (toInt word)) (N - 1)`: read signed, clamped into the node range. With `d` the destination node and
  `s` the source node of the edge, `rel j = pos[d, j] - pos[s, j]` for the three coordinates `j`,
  `nrm = sqrt (rel 0 ^ 2 + rel 1 ^ 2 + rel 2 ^ 2)`, `sh j = rel j / max nrm eps`, `f = feat[d, 0]`, and the message has
  four channels: `w0[0] * f` and, for each coordinate `j`, `w1[j] * (f * sh j)`.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-- The number of nodes and of edges. -/
abbrev NN : Nat := 100000
abbrev NE : Nat := 3200000

/-- The node a start index names: the word of row `e` of the start-index column, read signed and clamped into
    `[0, NN - 1]`. -/
def node (col : IVec ⟨2, ![NE, 1]⟩ 32) (e : Fin NE) : Fin NN :=
  ⟨min (col (ix2 e (0 : Fin 1))).toInt.toNat (NN - 1), Nat.lt_of_le_of_lt (Nat.min_le_right _ _) (by decide)⟩

/-- The lower bound of the norm in the quotient. -/
abbrev eps : EReal := Ideal.ofBits .f32 0x2B8CBCCC#32

section
variable (pos : (⟨2, ![NN, 3]⟩ : Shape).Idx → EReal) (feat : (⟨2, ![NN, 1]⟩ : Shape).Idx → EReal)
  (w0 : (⟨1, ![1]⟩ : Shape).Idx → EReal) (w1 : (⟨1, ![3]⟩ : Shape).Idx → EReal)
  (srcCol dstCol : IVec ⟨2, ![NE, 1]⟩ 32)

/-- Coordinate `j` of the edge's relative position: destination minus source. -/
def rel (e : Fin NE) (j : Fin 3) : EReal :=
  pos (ix2 (node dstCol e) j) - pos (ix2 (node srcCol e) j)

/-- The sum of the squares of the three coordinates. -/
def sq (e : Fin NE) : EReal := ∑ j : Fin 3, rel pos srcCol dstCol e j * rel pos srcCol dstCol e j

/-- The quotient's denominator: the norm, bounded below by `eps`. -/
def den (e : Fin NE) : EReal := max (Ideal.sqrt (sq pos srcCol dstCol e)) eps

/-- The destination node's scalar feature. -/
def fdst (e : Fin NE) : EReal := feat (ix2 (node dstCol e) (0 : Fin 1))

/-- Channel 0 of the message. -/
def msg0 (e : Fin NE) : EReal := w0 (ix1 (0 : Fin 1)) * fdst feat dstCol e

/-- Channel `1 + j` of the message. -/
def msg1 (e : Fin NE) (j : Fin 3) : EReal :=
  w1 (ix1 j) * (fdst feat dstCol e * Ideal.div (rel pos srcCol dstCol e j) (den pos srcCol dstCol e))

/-- The message array, edges by channels. -/
def msg : (⟨2, ![NE, 4]⟩ : Shape).Idx → EReal := fun i =>
  if h : (i 1).val = 0 then msg0 feat w0 dstCol ⟨(i 0).val, idx2_lt0 i⟩
  else msg1 pos feat w1 srcCol dstCol ⟨(i 0).val, idx2_lt0 i⟩ ⟨(i 1).val - 1, by have := idx2_lt1 i; omega⟩

theorem msg_zero (e : Fin NE) : msg pos feat w0 w1 srcCol dstCol (ix2 e (0 : Fin 4)) = msg0 feat w0 dstCol e := by
  unfold msg; exact dif_pos rfl

theorem msg_succ (e : Fin NE) (j : Fin 3) :
    msg pos feat w0 w1 srcCol dstCol (ix2 e (⟨j.val + 1, by omega⟩ : Fin 4)) = msg1 pos feat w1 srcCol dstCol e j := by
  unfold msg; exact dif_neg (Nat.succ_ne_zero j.val)

end

/-! ## The start-index column, and the aggregation after the messages -/

/-- The column of start indices made of an index vector: an index below zero is counted from the end (the node count is
    added), and the vector is laid as a column, one row per edge. -/
def col (x : IVec ⟨1, ![NE]⟩ 32) : IVec ⟨2, ![NE, 1]⟩ 32 :=
  broadcastInDim ⟨2, ![NE, 1]⟩ (![0] : Fin 1 → Fin 2) (by decide)
    (select (cmpi .slt x (broadcastInDim ⟨1, ![NE]⟩ (![] : Fin 0 → Fin 1) (by decide) (constantI ⟨0, ![]⟩ 32 0#32)))
      (addi x (broadcastInDim ⟨1, ![NE]⟩ (![] : Fin 0 → Fin 1) (by decide) (constantI ⟨0, ![]⟩ 32 100000#32))) x)

/-- The scatter's dimension numbers for rows of four channels, and for rows of one. -/
def scat4 : ScatterDims ⟨2, ![NN, 4]⟩ ⟨2, ![NE, 1]⟩ ⟨2, ![NE, 4]⟩ where
  updateWindowDims := [1]
  insertedWindowDims := [0]
  scatterDimsToOperandDims := [0]
  indexVectorDim := 1
def scat1 : ScatterDims ⟨2, ![NN, 1]⟩ ⟨2, ![NE, 1]⟩ ⟨2, ![NE, 1]⟩ where
  updateWindowDims := [1]
  insertedWindowDims := [0]
  scatterDimsToOperandDims := [0]
  indexVectorDim := 1

/-- The mean of the messages over each node's incoming edges: the messages summed into their destination rows, over
    the count of those edges (at least one), channel by channel. Both programs end with exactly these operations. -/
def tail (E : FVec Ideal ⟨2, ![NE, 4]⟩ .f32) (dst : IVec ⟨1, ![NE]⟩ 32) : FVec Ideal ⟨2, ![NN, 4]⟩ .f32 :=
  Host.divf
    (Host.scatterAdd scat4
      (broadcastInDim ⟨2, ![NN, 4]⟩ (![] : Fin 0 → Fin 2) (by decide) (constant (F := Ideal) ⟨0, ![]⟩ .f32 0x00000000#32))
      (broadcastInDim ⟨2, ![NE, 1]⟩ (![0] : Fin 1 → Fin 2) (by decide) dst) E)
    (broadcastInDim ⟨2, ![NN, 4]⟩ (![0, 1] : Fin 2 → Fin 2) (by decide)
      (maximumf
        (Host.scatterAdd scat1
          (broadcastInDim ⟨2, ![NN, 1]⟩ (![] : Fin 0 → Fin 2) (by decide) (constant (F := Ideal) ⟨0, ![]⟩ .f32 0x00000000#32))
          (broadcastInDim ⟨2, ![NE, 1]⟩ (![0] : Fin 1 → Fin 2) (by decide) dst)
          (broadcastInDim ⟨2, ![NE, 1]⟩ (![] : Fin 0 → Fin 2) (by decide) (constant (F := Ideal) ⟨0, ![]⟩ .f32 0x3F800000#32)))
        (broadcastInDim ⟨2, ![NN, 1]⟩ (![] : Fin 0 → Fin 2) (by decide) (constant (F := Ideal) ⟨0, ![]⟩ .f32 0x3F800000#32))))

end Cert.Spec

end
-- ==== Proof.KernelBody.lean ====
/-
  The kernel body's two stored values read at an index of the block, at the ideal instance.

  The block has four rows (channels) and one lane per edge of the tile. Row 0 is the broadcast weight `w0` times the
  destination feature's lane. Rows 1 to 3 are, at row `j` and lane `q`, the weight `w1[j]` times the feature's lane times
  the quotient of the `j`th relative coordinate by the clamped norm, where the relative coordinate is the difference of
  the two position blocks and the norm is the square root of the sum over the three rows of the squared differences.
-/
import proofs.«118592_j34823594836411_1_alg».proof.Proof.Gen.KernelIdeal.Skeleton
import proofs.«118592_j34823594836411_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- Row 0 of the block at lane `q`: the weight times the feature's lane. -/
theorem pay2_apply (v13 : Vec Ideal S1x80000 .f32) (v15 : Vec Ideal S1x1 .f32) (u : Fin 1) (q : Fin 80000) :
    k0_pay2 (F := Ideal) v13 v15 (ix2 u q) = v15 (ix2 (0 : Fin 1) (0 : Fin 1)) * v13 (ix2 (0 : Fin 1) q) := by
  obtain rfl : u = 0 := Subsingleton.elim _ _
  unfold k0_pay2 k0_pay1
  rw [mulf_apply, shapeCast_self, shapeCast_self]
  congr 1
  exact broadcastTo_apply v15 broadcasts_S1x1_S1x80000 (ix2 (0 : Fin 1) q) (ix2 (0 : Fin 1) (0 : Fin 1)) fun a => by
    match a with
    | ⟨0, _⟩ => rfl
    | ⟨1, _⟩ => rfl

/-- The sum of squares of the three rows at lane `q`. -/
theorem sumsq_apply (d : FVec Ideal S3x80000 .f32) (u : Fin 1) (q : Fin 80000) :
    shapeCast S1x80000 (multiReduction (F := Ideal) .add [0] S80000 (mulf d d) 0x00000000#32 reduces_S3x80000_S80000 (.inl rfl) rfl)
        shapeCasts_S80000_S1x80000 (ix2 u q)
      = ∑ k : Fin 3, d (ix2 k q) * d (ix2 k q) := by
  rw [shapeCast_a_1a_apply]
  refine (Ideal.multiReduction_add_single (mulf d d) 0x00000000#32 reduces_S3x80000_S80000 (.inl rfl) rfl (ix1 q)).trans ?_
  refine Finset.sum_congr rfl fun k _ => ?_
  have e : reduces_S3x80000_S80000.lift (ix1 q) k = ix2 k q :=
    funext fun a => Fin.ext (by match a with | ⟨0, _⟩ => rfl | ⟨1, _⟩ => rfl)
  rw [mulf_apply, e]
  rfl

/-- A square root at an index is the square root of the element. -/
theorem sqrt_apply {s : Shape} {φ : FTy} (v : FVec Ideal s φ) (i : s.Idx) : sqrt v i = Ideal.sqrt (v i) := rfl

/-- A column `[3, 1]` broadcast along the lanes reads, at row `j`, the column's entry `j`. -/
theorem bcast_col_apply (v : FVec Ideal S3x1 .f32) (j : Fin 3) (q : Fin 80000) :
    broadcastTo S3x80000 v broadcasts_S3x1_S3x80000 (ix2 j q) = v (ix2 j (0 : Fin 1)) :=
  broadcastTo_apply v broadcasts_S3x1_S3x80000 (ix2 j q) (ix2 j (0 : Fin 1)) fun a => by
    match a with
    | ⟨0, _⟩ => rfl
    | ⟨1, _⟩ => rfl

/-- Rows 1 to 3 of the block at row `j` and lane `q`. -/
theorem pay3_apply (v0 v2 : Vec Ideal S3x80000 .f32) (v13 : Vec Ideal S1x80000 .f32) (v19 : Vec Ideal S3x1 .f32)
    (j : Fin 3) (q : Fin 80000) :
    k0_pay3 (F := Ideal) v0 v2 v13 v19 (ix2 j q)
      = v19 (ix2 j (0 : Fin 1)) * (v13 (ix2 (0 : Fin 1) q) * Ideal.div (v0 (ix2 j q) - v2 (ix2 j q))
          (max (Ideal.sqrt (∑ k : Fin 3, (v0 (ix2 k q) - v2 (ix2 k q)) * (v0 (ix2 k q) - v2 (ix2 k q)))) Cert.Spec.eps)) := by
  unfold k0_pay3 k0_pay1
  simp only [shapeCast_self, mulf_apply, divf_apply, subf_apply, maximumf_apply, broadcast_apply, broadcastTo_1b_ab_apply,
    bcast_col_apply, sqrt_apply, sumsq_apply, Ideal.ofBits_def]
  have hs : shapeCast S1x80000 (multiReduction (F := Ideal) .add [0] S80000 (mulf (subf v0 v2) (subf v0 v2)) 0x00000000#32
        reduces_S3x80000_S80000 (.inl rfl) rfl) shapeCasts_S80000_S1x80000 (ix2 (0 : Fin 1) q)
      = ∑ k : Fin 3, (v0 (ix2 k q) - v2 (ix2 k q)) * (v0 (ix2 k q) - v2 (ix2 k q)) :=
    sumsq_apply (subf v0 v2) 0 q
  exact congrArg (fun z => v19 (ix2 j (0 : Fin 1)) * (v13 (ix2 (0 : Fin 1) q) *
    Ideal.div (v0 (ix2 j q) - v2 (ix2 j q)) (max (Ideal.sqrt z) Cert.Spec.eps))) hs

end Cert.KernelIdeal.Body

end
-- ==== Proof.KernelBlocks.lean ====
/-
  What the kernel body leaves in its output block, read at an index.

  The body stores twice into the four-row block: row 0 (one row) and rows 1 to 3 (three rows), both over every lane. So row
  0 of the block reads the first stored value at its row 0, and row `1 + j` reads the second stored value at its row `j`;
  together with the stored values read at an index this gives each entry of the block as a formula over the entries of
  the five input blocks in the same lane.
-/
import proofs.«118592_j34823594836411_1_alg».proof.Proof.Gen.KernelIdeal.Frame
import proofs.«118592_j34823594836411_1_alg».proof.Proof.KernelBody
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.Tactic Idealize.ShloMosaic.ValueIdx
open Cert.KernelIdeal Cert.KernelIdeal.Gen

theorem zero_offsets : (![0, 0] : Fin 2 → Nat) = fun _ => 0 := by
  funext a; match a with | ⟨0, _⟩ => rfl | ⟨1, _⟩ => rfl

/-- The block the body leaves is its two stores laid over each other, the later one (rows 1 to 3) first. -/
theorem out_eq_canon (c : Dev nD) (i : grid0.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S3x1 .f32) (harg5 : arg5.IsWhole) (arg6 : Memref sig .tc .vmem S4x80000 .f32) (harg6 : arg6.IsWhole)
    (x0 : Vec Ideal S3x80000 .f32) (x1 : Vec Ideal S3x80000 .f32) (x2 : Vec Ideal S1x80000 .f32) (x3 : Vec Ideal S1x1 .f32) (x4 : Vec Ideal S3x1 .f32) :
    out0_A_5 (F := Ideal) c i arg1 harg1 arg2 harg2 arg3 harg3 arg4 harg4 arg5 harg5 arg6 harg6 x0 x1 x2 x3 x4
      = View.canon [(⟨Rect.unit (s := S4x80000) ![1, 0] S3x80000.size inb_S4x80000_S3x80000_1_0, k0_pay3 x1 x0 x2 x4⟩ : View.Piece (Elt Ideal) S4x80000 .f32),
          ⟨Rect.unit (s := S4x80000) ![0, 0] S1x80000.size inb_S4x80000_S1x80000_0_0, k0_pay2 x2 x3⟩] := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, Memref.IsWhole.read_unread, View.ld_unit_zero (S := S3x80000) zero_offsets,
    View.ld_unit_zero (S := S1x80000) zero_offsets, View.ld_unit_zero (S := S1x1) zero_offsets,
    View.ld_unit_zero (S := S3x1) zero_offsets]

/-- Row `1 + j` of the block at lane `q`. -/
theorem out_row_succ (c : Dev nD) (i : grid0.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S3x1 .f32) (harg5 : arg5.IsWhole) (arg6 : Memref sig .tc .vmem S4x80000 .f32) (harg6 : arg6.IsWhole)
    (x0 : Vec Ideal S3x80000 .f32) (x1 : Vec Ideal S3x80000 .f32) (x2 : Vec Ideal S1x80000 .f32) (x3 : Vec Ideal S1x1 .f32) (x4 : Vec Ideal S3x1 .f32) (j : Fin 3) (q : Fin 80000) :
    out0_A_5 (F := Ideal) c i arg1 harg1 arg2 harg2 arg3 harg3 arg4 harg4 arg5 harg5 arg6 harg6 x0 x1 x2 x3 x4 (ix2 (⟨j.val + 1, by omega⟩ : Fin 4) q)
      = x4 (ix2 j (0 : Fin 1)) * (x2 (ix2 (0 : Fin 1) q) * Ideal.div (x1 (ix2 j q) - x0 (ix2 j q))
          (max (Ideal.sqrt (∑ k : Fin 3, (x1 (ix2 k q) - x0 (ix2 k q)) * (x1 (ix2 k q) - x0 (ix2 k q)))) Cert.Spec.eps)) := by
  rw [out_eq_canon]
  have e : (Rect.unit (s := S4x80000) ![1, 0] S3x80000.size inb_S4x80000_S3x80000_1_0).emb (ix2 j q)
      = ix2 (⟨j.val + 1, by omega⟩ : Fin 4) q :=
    funext fun a => Fin.ext (by
      match a with
      | ⟨0, _⟩ => show 1 + 1 * j.val = j.val + 1; omega
      | ⟨1, _⟩ => show 0 + 1 * q.val = q.val; omega)
  rw [← e, View.canon_cons_emb]
  exact Cert.KernelIdeal.Body.pay3_apply x1 x0 x2 x4 j q

/-- Row 0 of the block at lane `q`. -/
theorem out_row_zero (c : Dev nD) (i : grid0.Coords) (arg1 : Memref sig .tc .vmem S3x80000 .f32) (harg1 : arg1.IsWhole) (arg2 : Memref sig .tc .vmem S3x80000 .f32) (harg2 : arg2.IsWhole) (arg3 : Memref sig .tc .vmem S1x80000 .f32) (harg3 : arg3.IsWhole) (arg4 : Memref sig .tc .vmem S1x1 .f32) (harg4 : arg4.IsWhole) (arg5 : Memref sig .tc .vmem S3x1 .f32) (harg5 : arg5.IsWhole) (arg6 : Memref sig .tc .vmem S4x80000 .f32) (harg6 : arg6.IsWhole)
    (x0 : Vec Ideal S3x80000 .f32) (x1 : Vec Ideal S3x80000 .f32) (x2 : Vec Ideal S1x80000 .f32) (x3 : Vec Ideal S1x1 .f32) (x4 : Vec Ideal S3x1 .f32) (q : Fin 80000) :
    out0_A_5 (F := Ideal) c i arg1 harg1 arg2 harg2 arg3 harg3 arg4 harg4 arg5 harg5 arg6 harg6 x0 x1 x2 x3 x4 (ix2 (0 : Fin 4) q)
      = x3 (ix2 (0 : Fin 1) (0 : Fin 1)) * x2 (ix2 (0 : Fin 1) q) := by
  rw [out_eq_canon]
  rw [View.canon_cons_of_not_mem _ _ (by
    rw [Rect.mem_set_unit]
    intro h
    have h0 : (1 : Nat) ≤ 0 := (h 0).1
    omega)]
  have e : (Rect.unit (s := S4x80000) ![0, 0] S1x80000.size inb_S4x80000_S1x80000_0_0).emb (ix2 (0 : Fin 1) q)
      = ix2 (0 : Fin 4) q :=
    funext fun a => Fin.ext (by
      match a with
      | ⟨0, _⟩ => rfl
      | ⟨1, _⟩ => show 0 + 1 * q.val = q.val; omega)
  rw [← e, View.canon_cons_emb]
  exact Cert.KernelIdeal.Body.pay2_apply x2 x3 0 q

end Cert.KernelIdeal.Blocks

end
-- ==== Proof.KernelArray.lean ====
/-
  The kernel's result array after the run, as one function of the five arrays its windows stage.

  The grid has forty points; point `t` works on lanes `80000 t … 80000 t + 79999` of the three edge-indexed arrays (the two
  gathered position arrays and the gathered feature row) and on the whole of the two weight arrays, and writes back the
  same lanes of the four-row result. So the block the body leaves at point `t` is the block of one whole-array function:
  entry `(0, e)` is `w0 · feat[e]`, entry `(1 + j, e)` is `w1[j] · (feat[e] · (dst[j, e] − src[j, e]) / max (norm e) eps)`
  with `norm e` the root of the sum over the three rows of the squared differences at lane `e`. The forty blocks tile
  the result, so the array ends holding that function.
-/
import proofs.«118592_j34823594836411_1_alg».proof.Proof.Gen.KernelIdeal.Frame
import proofs.«118592_j34823594836411_1_alg».proof.Proof.KernelBlocks
import Idealize.ShloMosaic.Lib.Pipeline.Value
import Idealize.ShloMosaic.Lib.ValueIdx

set_option maxRecDepth 16384

noncomputable section

open scoped BigOperators

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The five staged arrays as the region finds them, at their literal types. -/
abbrev srcA (c : Dev nD) : Vec Ideal S3x3200000 .f32 := V m c main_v8
abbrev dstA (c : Dev nD) : Vec Ideal S3x3200000 .f32 := V m c main_v15
abbrev featA (c : Dev nD) : Vec Ideal S1x3200000 .f32 := V m c main_v22
abbrev w0A (c : Dev nD) : Vec Ideal S1x1 .f32 := V m c main_v23
abbrev w1A (c : Dev nD) : Vec Ideal S3x1 .f32 := V m c main_v24

/-- The whole-array function: the messages, channels by edges. -/
def edgeT (A0 A1 : Vec Ideal S3x3200000 .f32) (A2 : Vec Ideal S1x3200000 .f32) (A3 : Vec Ideal S1x1 .f32)
    (A4 : Vec Ideal S3x1 .f32) : Vec Ideal S4x3200000 .f32 := fun i =>
  if h : (i 0).val = 0 then
    A3 (ix2 (0 : Fin 1) (0 : Fin 1)) * A2 (ix2 (0 : Fin 1) (⟨(i 1).val, idx2_lt1 i⟩ : Fin 3200000))
  else
    A4 (ix2 (⟨(i 0).val - 1, by have := idx2_lt0 i; omega⟩ : Fin 3) (0 : Fin 1))
      * (A2 (ix2 (0 : Fin 1) (⟨(i 1).val, idx2_lt1 i⟩ : Fin 3200000))
        * Ideal.div (A1 (ix2 (⟨(i 0).val - 1, by have := idx2_lt0 i; omega⟩ : Fin 3) (⟨(i 1).val, idx2_lt1 i⟩ : Fin 3200000))
            - A0 (ix2 (⟨(i 0).val - 1, by have := idx2_lt0 i; omega⟩ : Fin 3) (⟨(i 1).val, idx2_lt1 i⟩ : Fin 3200000)))
          (max (Ideal.sqrt (∑ k : Fin 3,
              (A1 (ix2 k (⟨(i 1).val, idx2_lt1 i⟩ : Fin 3200000)) - A0 (ix2 k (⟨(i 1).val, idx2_lt1 i⟩ : Fin 3200000)))
              * (A1 (ix2 k (⟨(i 1).val, idx2_lt1 i⟩ : Fin 3200000)) - A0 (ix2 k (⟨(i 1).val, idx2_lt1 i⟩ : Fin 3200000)))))
            Cert.Spec.eps))

/-- The printed index maps over the grid: the edge-indexed windows are at block `(0, t)`, the weights at `(0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem lane_lt (t : Fin cfg0.N) (q : Fin 80000) : t.val * 80000 + q.val < 3200000 := by
  have h : t.val < 40 := lt_of_lt_of_eq t.isLt N_0
  omega

/-- The source-position block at point `t`. -/
theorem blk0_apply (c : Dev nD) (t : Fin cfg0.N) (j : Fin 3) (q : Fin 80000) :
    (iblk m c 0 t : Vec Ideal S3x80000 .f32) (ix2 j q) = srcA m c (ix2 j ⟨t.val * 80000 + q.val, lane_lt t q⟩) := by
  obtain ⟨e0, e1, -⟩ := idx_facts t
  unfold iblk
  rw [View.read_apply]
  show V m c main_v8 _ = V m c main_v8 _
  congr 1
  funext a
  apply Fin.ext
  match a with
  | ⟨0, _⟩ => show win0_0.index t 0 * 3 + 1 * j.val = j.val; rw [e0]; omega
  | ⟨1, _⟩ => show win0_0.index t 1 * 80000 + 1 * q.val = t.val * 80000 + q.val; rw [e1]; omega

/-- The destination-position block at point `t`. -/
theorem blk1_apply (c : Dev nD) (t : Fin cfg0.N) (j : Fin 3) (q : Fin 80000) :
    (iblk m c 1 t : Vec Ideal S3x80000 .f32) (ix2 j q) = dstA m c (ix2 j ⟨t.val * 80000 + q.val, lane_lt t q⟩) := by
  obtain ⟨-, -, e0, e1, -⟩ := idx_facts t
  unfold iblk
  rw [View.read_apply]
  show V m c main_v15 _ = V m c main_v15 _
  congr 1
  funext a
  apply Fin.ext
  match a with
  | ⟨0, _⟩ => show win0_1.index t 0 * 3 + 1 * j.val = j.val; rw [e0]; omega
  | ⟨1, _⟩ => show win0_1.index t 1 * 80000 + 1 * q.val = t.val * 80000 + q.val; rw [e1]; omega

/-- The feature block at point `t`. -/
theorem blk2_apply (c : Dev nD) (t : Fin cfg0.N) (u : Fin 1) (q : Fin 80000) :
    (iblk m c 2 t : Vec Ideal S1x80000 .f32) (ix2 u q) = featA m c (ix2 (0 : Fin 1) ⟨t.val * 80000 + q.val, lane_lt t q⟩) := by
  obtain ⟨-, -, -, -, e0, e1, -⟩ := idx_facts t
  obtain rfl : u = 0 := Subsingleton.elim _ _
  unfold iblk
  rw [View.read_apply]
  show V m c main_v22 _ = V m c main_v22 _
  congr 1
  funext a
  apply Fin.ext
  match a with
  | ⟨0, _⟩ => show win0_2.index t 0 * 1 + 1 * 0 = 0; rw [e0]
  | ⟨1, _⟩ => show win0_2.index t 1 * 80000 + 1 * q.val = t.val * 80000 + q.val; rw [e1]; omega

/-- The two weight blocks are the weight arrays at every point. -/
theorem blk3_apply (c : Dev nD) (t : Fin cfg0.N) :
    (iblk m c 3 t : Vec Ideal S1x1 .f32) (ix2 (0 : Fin 1) (0 : Fin 1)) = w0A m c (ix2 (0 : Fin 1) (0 : Fin 1)) := by
  obtain ⟨-, -, -, -, -, -, e0, e1, -⟩ := idx_facts t
  unfold iblk
  rw [View.read_apply]
  show V m c main_v23 _ = V m c main_v23 _
  congr 1
  funext a
  apply Fin.ext
  match a with
  | ⟨0, _⟩ => show win0_3.index t 0 * 1 + 1 * 0 = 0; rw [e0]
  | ⟨1, _⟩ => show win0_3.index t 1 * 1 + 1 * 0 = 0; rw [e1]

theorem blk4_apply (c : Dev nD) (t : Fin cfg0.N) (j : Fin 3) :
    (iblk m c 4 t : Vec Ideal S3x1 .f32) (ix2 j (0 : Fin 1)) = w1A m c (ix2 j (0 : Fin 1)) := by
  obtain ⟨-, -, -, -, -, -, -, -, e0, e1, -⟩ := idx_facts t
  unfold iblk
  rw [View.read_apply]
  show V m c main_v24 _ = V m c main_v24 _
  congr 1
  funext a
  apply Fin.ext
  match a with
  | ⟨0, _⟩ => show win0_4.index t 0 * 3 + 1 * j.val = j.val; rw [e0]; omega
  | ⟨1, _⟩ => show win0_4.index t 1 * 1 + 1 * 0 = 0; rw [e1]

/-- Row 0 of the block point `t` leaves is row 0 of the whole-array function at the point's lanes. -/
theorem block_apply_zero (c : Dev nD) (t : Fin cfg0.N) (q : Fin 80000) :
    (outsAt0 m c t : Vec Ideal S4x80000 .f32) (ix2 (0 : Fin 4) q)
      = edgeT (srcA m c) (dstA m c) (featA m c) (w0A m c) (w1A m c) (ix2 (0 : Fin 4) ⟨t.val * 80000 + q.val, lane_lt t q⟩) := by
  unfold outsAt0
  refine (Cert.KernelIdeal.Blocks.out_row_zero c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) q).trans ?_
  rw [blk3_apply, blk2_apply]
  unfold edgeT
  refine Eq.symm ?_
  exact dif_pos rfl

/-- Rows 1 to 3 likewise. -/
theorem block_apply_succ (c : Dev nD) (t : Fin cfg0.N) (j : Fin 3) (q : Fin 80000) :
    (outsAt0 m c t : Vec Ideal S4x80000 .f32) (ix2 (⟨j.val + 1, by omega⟩ : Fin 4) q)
      = edgeT (srcA m c) (dstA m c) (featA m c) (w0A m c) (w1A m c) (ix2 (⟨j.val + 1, by omega⟩ : Fin 4) ⟨t.val * 80000 + q.val, lane_lt t q⟩) := by
  unfold outsAt0
  refine (Cert.KernelIdeal.Blocks.out_row_succ c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) j q).trans ?_
  simp only [blk0_apply, blk1_apply, blk2_apply, blk4_apply]
  unfold edgeT
  refine Eq.symm ?_
  exact dif_neg (Nat.succ_ne_zero j.val)

/-- Every entry of the block point `t` leaves. -/
theorem block_apply (c : Dev nD) (t : Fin cfg0.N) (ch : Fin 4) (q : Fin 80000) :
    (outsAt0 m c t : Vec Ideal S4x80000 .f32) (ix2 ch q)
      = edgeT (srcA m c) (dstA m c) (featA m c) (w0A m c) (w1A m c) (ix2 ch ⟨t.val * 80000 + q.val, lane_lt t q⟩) := by
  obtain ⟨n, hn⟩ := ch
  cases n with
  | zero => exact block_apply_zero m c t q
  | succ n => exact block_apply_succ m c t ⟨n, by omega⟩ q

/-- What point `t` writes back is block `t` of the whole-array function. -/
theorem flushed_eq (c : Dev nD) (t : Fin cfg0.N) :
    (dats m 0 c).flushed 5 t = ((cfg0.win 5).blk t).view.read (Elt Ideal) (edgeT (srcA m c) (dstA m c) (featA m c) (w0A m c) (w1A m c)) := by
  obtain ⟨-, -, -, -, -, -, -, -, -, -, e0, e1⟩ := idx_facts t
  show (cfg0.win 5).cut (grid0.coords t) ((dats m 0 c).after 5 t) = _
  rw [after0_5]
  funext y
  obtain ⟨ch, q, rfl⟩ : ∃ (ch : Fin 4) (q : Fin 80000), y = ix2 ch q := ⟨y 0, y 1, eq_ix2 y⟩
  rw [View.read_apply]
  refine (block_apply m c t ch q).trans ?_
  refine congrArg (edgeT (srcA m c) (dstA m c) (featA m c) (w0A m c) (w1A m c)) ?_
  funext a
  apply Fin.ext
  match a with
  | ⟨0, _⟩ => show ch.val = win0_5.index t 0 * 4 + 1 * ch.val; rw [e0]; omega
  | ⟨1, _⟩ => show t.val * 80000 + q.val = win0_5.index t 1 * 80000 + 1 * q.val; rw [e1]; omega

/-- Every entry of the result array is in the block of the point its lane falls in. -/
theorem cover (i : S4x3200000.Idx) :
    ∃ t : Fin cfg0.N, (cfg0.win 5).flush t = true ∧ i ∈ ((cfg0.win 5).blk t).view.set := by
  have hi1 : (i 1).val < 3200000 := idx2_lt1 i
  have hi0 : (i 0).val < 4 := idx2_lt0 i
  have ht : (i 1).val / 80000 < cfg0.N := lt_of_lt_of_eq (by omega : (i 1).val / 80000 < 40) N_0.symm
  obtain ⟨-, -, -, -, -, -, -, -, -, -, e0, e1⟩ := idx_facts ⟨(i 1).val / 80000, ht⟩
  refine ⟨⟨(i 1).val / 80000, ht⟩, flush0_5 _, ?_⟩
  show i ∈ ((View.whole main_v25).slice (win0_5.rect ⟨(i 1).val / 80000, ht⟩)).set
  rw [View.set_slice_whole, Rect.mem_set_unit]
  intro a
  match a with
  | ⟨0, _⟩ =>
    show win0_5.index ⟨(i 1).val / 80000, ht⟩ 0 * 4 ≤ (i 0).val ∧ (i 0).val < win0_5.index ⟨(i 1).val / 80000, ht⟩ 0 * 4 + 4
    rw [e0]; omega
  | ⟨1, _⟩ =>
    show win0_5.index ⟨(i 1).val / 80000, ht⟩ 1 * 80000 ≤ (i 1).val
      ∧ (i 1).val < win0_5.index ⟨(i 1).val / 80000, ht⟩ 1 * 80000 + 80000
    rw [e1]
    show (i 1).val / 80000 * 80000 ≤ (i 1).val ∧ (i 1).val < (i 1).val / 80000 * 80000 + 80000
    omega

/-- The result array after the run. -/
theorem final (c : Dev nD) : (dats m 0 c).arrAt 5 cfg0.N = edgeT (srcA m c) (dstA m c) (featA m c) (w0A m c) (w1A m c) :=
  (dats m 0 c).arrAt_eq_of_cover 5 (edgeT (srcA m c) (dstA m c) (featA m c) (w0A m c) (w1A m c)) (fun t _ => flushed_eq m c t) (fun i => cover i)

end Cert.KernelIdeal.Arr

end
-- ==== Proof.LibGatherAxis.lean ====
/-
  A `stablehlo.gather` that takes whole rows, or whole columns, of a two-axis operand at a column of start indices,
  read at an index.

  `x[idx]` of an operand `[N, K]` at start indices `[E, 1]` gathers rows: offset axis 1, operand axis 0 collapsed and
  start-indexed, slice sizes `[1, K]`; result element `(e, k)` is the operand at row `idx[e, 0]`, read signed and clamped
  into `[0, N - 1]`, and column `k`. The transposed form `x[:, idx]` of an operand `[K, N]` gathers columns: offset axis 0,
  operand axis 1 collapsed and start-indexed, slice sizes `[K, 1]`; result element `(k, e)` is the operand at row `k` and
  column `idx[e, 0]` clamped the same way. The dimension numbers are hypotheses, each closed by `rfl` on a printed
  record.
-/
import Idealize.ShloMosaic.PureOps
import Idealize.ShloMosaic.Lib.ValueIdx

noncomputable section

namespace Idealize.ShloMosaic.GatherAxis

open Idealize.ShloMosaic Idealize.ShloMosaic.ValueIdx

variable {α : Type}

/-- An element of a one-element list is that element, whatever the position. -/
private theorem getElem_of_eq_singleton {β : Type} {l : List β} {a : β} (hl : l = [a]) (i : Nat) (h : i < l.length) :
    l[i]'h = a := by
  subst hl
  have hi : i = 0 := by simpa using h
  subst hi
  rfl

/-- ROWS: result element `(e, k)` is the operand at the clamped start index of row `e` and column `k`. -/
theorem gather_rows_apply {N K E w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsim : d.startIndexMap = [0]) (hivd : d.indexVectorDim = 1)
    (x : (⟨2, ![N, K]⟩ : Shape).Idx → α) (idx : IVec ⟨2, ![E, 1]⟩ w) (e : Fin E) (k : Fin K) :
    Host.gather d x idx (ix2 e k)
      = x (ix2 (⟨min (idx (ix2 e (0 : Fin 1))).toInt.toNat (N - 1), by omega⟩ : Fin N) k) := by
  unfold Host.gather
  congr 1
  funext a
  apply Fin.ext
  have hb : ∀ a : Fin 2, a ∉ d.operandBatchingDims := fun a => by rw [hob]; exact List.not_mem_nil
  match a with
  | ⟨0, _⟩ =>
    -- the collapsed, start-indexed axis: the clamped start index, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      -- the start indices' axis 0 is read at the result's one batch axis, axis 0
      unfold GatherDims.siIdx
      rw [dif_neg (by rw [hivd]; simp)]
      unfold GatherDims.siCoord
      apply Fin.ext
      simp only [Fin.val_cast]
      have hbd : d.batchDims = [0] := by
        show (⟨2, ![E, K]⟩ : Shape).kept d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: start zero (not start-indexed), the result's coordinate on its one offset axis
    have hk : (1 : Fin 2) ∈ d.sKept := by rw [GatherDims.mem_sKept, hcoll]; exact ⟨by simp, hb 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk, getElem_of_eq_singleton hoff]
    show 0 + 0 + k.val = k.val
    omega

/-- COLUMNS: result element `(k, e)` is the operand at row `k` and the clamped start index of row `e`. -/
theorem gather_cols_apply {N K E w : Nat} (hN : 0 < N)
    (d : GatherDims ⟨2, ![K, N]⟩ ⟨2, ![E, 1]⟩ ⟨2, ![K, E]⟩)
    (hoff : d.offsetDims = [0]) (hcoll : d.collapsedSliceDims = [1]) (hob : d.operandBatchingDims = [])
    (hsim : d.startIndexMap = [1]) (hivd : d.indexVectorDim = 1)
    (x : (⟨2, ![K, N]⟩ : Shape).Idx → α) (idx : IVec ⟨2, ![E, 1]⟩ w) (k : Fin K) (e : Fin E) :
    Host.gather d x idx (ix2 k e)
      = x (ix2 k (⟨min (idx (ix2 e (0 : Fin 1))).toInt.toNat (N - 1), by omega⟩ : Fin N)) := by
  unfold Host.gather
  congr 1
  funext a
  apply Fin.ext
  have hb : ∀ a : Fin 2, a ∉ d.operandBatchingDims := fun a => by rw [hob]; exact List.not_mem_nil
  match a with
  | ⟨0, _⟩ =>
    -- the offset axis: start zero (not start-indexed), the result's coordinate on its one offset axis
    have hk : (0 : Fin 2) ∈ d.sKept := by rw [GatherDims.mem_sKept, hcoll]; exact ⟨by simp, hb 0⟩
    have hm : (0 : Fin 2) ∉ d.startIndexMap := by rw [hsim]; simp
    show d.start (ix2 k e) idx 0 + d.batchCoord (ix2 k e) 0 + d.offCoord (ix2 k e) 0 = k.val
    rw [GatherDims.batchCoord_eq_zero _ _ _ (hb 0)]
    unfold GatherDims.start GatherDims.offCoord
    rw [dif_neg hm, dif_pos hk, getElem_of_eq_singleton hoff]
    show 0 + 0 + k.val = k.val
    omega
  | ⟨1, _⟩ =>
    -- the collapsed, start-indexed axis: the clamped start index, no batching and no offset coordinate
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 k e) idx 1 + d.batchCoord (ix2 k e) 1 + d.offCoord (ix2 k e) 1 = _
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = min (idx (ix2 e (0 : Fin 1))).toInt.toNat (N - 1)
    rw [hsl]
    congr 3
    congr 1
    funext b
    match b with
    | ⟨0, _⟩ =>
      -- the start indices' axis 0 is read at the result's one batch axis, axis 1
      unfold GatherDims.siIdx
      rw [dif_neg (by rw [hivd]; simp)]
      unfold GatherDims.siCoord
      apply Fin.ext
      simp only [Fin.val_cast]
      have hbd : d.batchDims = [1] := by
        show (⟨2, ![K, E]⟩ : Shape).kept d.offsetDims = [1]
        rw [hoff]; rfl
      rw [getElem_of_eq_singleton hbd]
      rfl
    | ⟨1, _⟩ =>
      unfold GatherDims.siIdx
      rw [dif_pos (by rw [hivd])]
      apply Fin.ext
      show List.idxOf (1 : Fin 2) d.startIndexMap = 0
      rw [hsim]; simp

end Idealize.ShloMosaic.GatherAxis

end
-- ==== Proof.KernelHost.lean ====
/-
  The five arrays the kernel's windows stage, as the host operations before the region leave them, read at an index.

  The positions are transposed to `[3, N]` and their columns gathered at the start-index columns of the source and of the
  destination indices: entry `(j, e)` is the position array at the clamped node of edge `e` and coordinate `j`. The
  feature column is transposed to one row and gathered at the destination column: entry `(0, e)` is the feature of the
  clamped destination node. The two weight vectors are reshaped to columns.
-/
import proofs.«118592_j34823594836411_1_alg».proof.Proof.Gen.KernelIdeal.Frame
import proofs.«118592_j34823594836411_1_alg».proof.Proof.Spec
import proofs.«118592_j34823594836411_1_alg».proof.Proof.LibGatherAxis
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostPre

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## Each array as a term over the launch contents -/

/-- The source positions: the transposed positions gathered at the source start-index column. -/
theorem v8_term (c : Dev nD) :
    (V m c main_v8 : Vec Ideal S3x3200000 .f32)
      = Host.gather gather_S3x100000_S3200000x1_S3x3200000_0_1_n_n_1_1_31
          (transpose S3x100000 [1, 0] (m ((c : Thread nD τ).loc main_arg0)) transposes_S100000x3_S3x100000_1_0)
          (Cert.Spec.col (m ((c : Thread nD τ).loc main_arg4))) := by
  show StableHlo.after hostOps0 (fun b => m (c, b)) (Proc.devRef .tc main_v8) = _
  after_results
  rfl

/-- The destination positions: the same transposed positions gathered at the destination start-index column. -/
theorem v15_term (c : Dev nD) :
    (V m c main_v15 : Vec Ideal S3x3200000 .f32)
      = Host.gather gather_S3x100000_S3200000x1_S3x3200000_0_1_n_n_1_1_31
          (transpose S3x100000 [1, 0] (m ((c : Thread nD τ).loc main_arg0)) transposes_S100000x3_S3x100000_1_0)
          (Cert.Spec.col (m ((c : Thread nD τ).loc main_arg5))) := by
  show StableHlo.after hostOps0 (fun b => m (c, b)) (Proc.devRef .tc main_v15) = _
  after_results_simp
  rfl

/-- The destination feature: the feature column transposed to one row and gathered at the destination start-index
    column. -/
theorem v22_term (c : Dev nD) :
    (V m c main_v22 : Vec Ideal S1x3200000 .f32)
      = Host.gather gather_S1x100000_S3200000x1_S1x3200000_0_1_n_n_1_1_11
          (transpose S1x100000 [1, 0] (m ((c : Thread nD τ).loc main_arg1)) transposes_S100000x1_S1x100000_1_0)
          (Cert.Spec.col (m ((c : Thread nD τ).loc main_arg5))) := by
  show StableHlo.after hostOps0 (fun b => m (c, b)) (Proc.devRef .tc main_v22) = _
  after_results_simp
  rfl

/-- The scalar weight recast as a one-by-one array. -/
theorem v23_term (c : Dev nD) :
    (V m c main_v23 : Vec Ideal S1x1 .f32)
      = shapeCast S1x1 (m ((c : Thread nD τ).loc main_arg2) : Vec Ideal S1 .f32) shapeCasts_S1_S1x1 := by
  show StableHlo.after hostOps0 (fun b => m (c, b)) (Proc.devRef .tc main_v23) = _
  after_results
  rfl

/-- The three weights recast as a column. -/
theorem v24_term (c : Dev nD) :
    (V m c main_v24 : Vec Ideal S3x1 .f32)
      = shapeCast S3x1 (m ((c : Thread nD τ).loc main_arg3) : Vec Ideal S3 .f32) shapeCasts_S3_S3x1 := by
  show StableHlo.after hostOps0 (fun b => m (c, b)) (Proc.devRef .tc main_v24) = _
  after_results
  rfl

/-! ## The arrays read at an index -/

/-- The gathered source positions. -/
theorem src_apply (c : Dev nD) (j : Fin 3) (e : Fin 3200000) :
    (V m c main_v8 : Vec Ideal S3x3200000 .f32) (ix2 j e)
      = (m ((c : Thread nD τ).loc main_arg0) : Vec Ideal S100000x3 .f32)
          (ix2 (Cert.Spec.node (Cert.Spec.col (m ((c : Thread nD τ).loc main_arg4))) e) j) := by
  refine (congrFun (v8_term m c) (ix2 j e)).trans ?_
  -- the gather takes column `node e` of the transposed positions, at row `j`
  refine (GatherAxis.gather_cols_apply (N := 100000) (K := 3) (E := 3200000) (by decide)
    gather_S3x100000_S3200000x1_S3x3200000_0_1_n_n_1_1_31 rfl rfl rfl rfl rfl _ _ j e).trans ?_
  -- and the transpose swaps the two coordinates back
  exact transpose_apply _ _ _ _ _ (fun b => match b with | ⟨0, _⟩ => rfl | ⟨1, _⟩ => rfl)

/-- The gathered destination positions. -/
theorem dst_apply (c : Dev nD) (j : Fin 3) (e : Fin 3200000) :
    (V m c main_v15 : Vec Ideal S3x3200000 .f32) (ix2 j e)
      = (m ((c : Thread nD τ).loc main_arg0) : Vec Ideal S100000x3 .f32)
          (ix2 (Cert.Spec.node (Cert.Spec.col (m ((c : Thread nD τ).loc main_arg5))) e) j) := by
  refine (congrFun (v15_term m c) (ix2 j e)).trans ?_
  refine (GatherAxis.gather_cols_apply (N := 100000) (K := 3) (E := 3200000) (by decide)
    gather_S3x100000_S3200000x1_S3x3200000_0_1_n_n_1_1_31 rfl rfl rfl rfl rfl _ _ j e).trans ?_
  exact transpose_apply _ _ _ _ _ (fun b => match b with | ⟨0, _⟩ => rfl | ⟨1, _⟩ => rfl)

/-- The gathered destination feature. -/
theorem feat_apply (c : Dev nD) (e : Fin 3200000) :
    (V m c main_v22 : Vec Ideal S1x3200000 .f32) (ix2 (0 : Fin 1) e)
      = (m ((c : Thread nD τ).loc main_arg1) : Vec Ideal S100000x1 .f32)
          (ix2 (Cert.Spec.node (Cert.Spec.col (m ((c : Thread nD τ).loc main_arg5))) e) (0 : Fin 1)) := by
  refine (congrFun (v22_term m c) (ix2 (0 : Fin 1) e)).trans ?_
  refine (GatherAxis.gather_cols_apply (N := 100000) (K := 1) (E := 3200000) (by decide)
    gather_S1x100000_S3200000x1_S1x3200000_0_1_n_n_1_1_11 rfl rfl rfl rfl rfl _ _ (0 : Fin 1) e).trans ?_
  exact transpose_apply _ _ _ _ _ (fun b => match b with | ⟨0, _⟩ => rfl | ⟨1, _⟩ => rfl)

/-- The scalar weight as a one-entry column. -/
theorem w0_apply (c : Dev nD) :
    (V m c main_v23 : Vec Ideal S1x1 .f32) (ix2 (0 : Fin 1) (0 : Fin 1))
      = (m ((c : Thread nD τ).loc main_arg2) : Vec Ideal S1 .f32) (ix1 (0 : Fin 1)) := by
  refine (congrFun (v23_term m c) (ix2 (0 : Fin 1) (0 : Fin 1))).trans ?_
  -- both indices sit at row-major position 0
  exact shapeCast_apply (s := S1) (t := S1x1) _ _ _ _ (by rw [Shape.rowMajor_val_two, Shape.rowMajor_val_one]; rfl)

/-- The three weights as a column. -/
theorem w1_apply (c : Dev nD) (j : Fin 3) :
    (V m c main_v24 : Vec Ideal S3x1 .f32) (ix2 j (0 : Fin 1))
      = (m ((c : Thread nD τ).loc main_arg3) : Vec Ideal S3 .f32) (ix1 j) := by
  refine (congrFun (v24_term m c) (ix2 j (0 : Fin 1))).trans ?_
  -- row `j` of a one-column array sits at row-major position `j * 1 + 0`
  exact shapeCast_apply (s := S3) (t := S3x1) _ _ _ _ (by
    rw [Shape.rowMajor_val_two, Shape.rowMajor_val_one]
    show j.val = j.val * 1 + 0
    omega)

end Cert.KernelIdeal.HostPre

end
-- ==== Proof.KernelMsg.lean ====
/-
  The kernel's result array, transposed to edges by channels, is the message array of the specification.

  Entry `(e, ch)` of the transpose is entry `(ch, e)` of the result. Channel 0 is `w0 · feat[e]` and channel `1 + j` is
  `w1[j] · (feat[e] · (dst[j, e] − src[j, e]) / max (norm e) eps)` over the staged arrays; the staged arrays read at an
  index are the argument arrays at the clamped nodes of edge `e`, which turns both into the specification's formulas.
-/
import proofs.«118592_j34823594836411_1_alg».proof.Proof.KernelArray
import proofs.«118592_j34823594836411_1_alg».proof.Proof.KernelHost
import Idealize.ShloMosaic.Lib.Pipeline.Value
import Idealize.ShloMosaic.Lib.ValueIdx

set_option maxRecDepth 16384

noncomputable section

open scoped BigOperators

namespace Cert.KernelIdeal.Msg

open Idealize.ShloMosaic Idealize.ShloMosaic.TcCoe Idealize.ShloMosaic.ValueIdx Idealize.SL.Sem
open Cert.KernelIdeal Cert.KernelIdeal.Gen

/-- Row 0 of the whole-array function. -/
theorem edgeT_zero (A0 A1 : Vec Ideal S3x3200000 .f32) (A2 : Vec Ideal S1x3200000 .f32) (A3 : Vec Ideal S1x1 .f32)
    (A4 : Vec Ideal S3x1 .f32) (e : Fin 3200000) :
    Arr.edgeT A0 A1 A2 A3 A4 (ix2 (0 : Fin 4) e) = A3 (ix2 (0 : Fin 1) (0 : Fin 1)) * A2 (ix2 (0 : Fin 1) e) := by
  unfold Arr.edgeT; exact dif_pos rfl

/-- Row `1 + j` of the whole-array function. -/
theorem edgeT_succ (A0 A1 : Vec Ideal S3x3200000 .f32) (A2 : Vec Ideal S1x3200000 .f32) (A3 : Vec Ideal S1x1 .f32)
    (A4 : Vec Ideal S3x1 .f32) (j : Fin 3) (e : Fin 3200000) :
    Arr.edgeT A0 A1 A2 A3 A4 (ix2 (⟨j.val + 1, by omega⟩ : Fin 4) e)
      = A4 (ix2 j (0 : Fin 1)) * (A2 (ix2 (0 : Fin 1) e) * Ideal.div (A1 (ix2 j e) - A0 (ix2 j e))
          (max (Ideal.sqrt (∑ k : Fin 3, (A1 (ix2 k e) - A0 (ix2 k e)) * (A1 (ix2 k e) - A0 (ix2 k e)))) Cert.Spec.eps)) := by
  unfold Arr.edgeT; exact dif_neg (Nat.succ_ne_zero j.val)

/-- The channel formula depends only on its four ingredients: the weight, the feature, and the two endpoints' coordinates. -/
theorem formula_congr {a4 b4 a2 b2 : EReal} {a1 b1 a0 b0 : Fin 3 → EReal} (h4 : a4 = b4) (h2 : a2 = b2)
    (h1 : ∀ k, a1 k = b1 k) (h0 : ∀ k, a0 k = b0 k) (j : Fin 3) :
    a4 * (a2 * Ideal.div (a1 j - a0 j) (max (Ideal.sqrt (∑ k : Fin 3, (a1 k - a0 k) * (a1 k - a0 k))) Cert.Spec.eps))
      = b4 * (b2 * Ideal.div (b1 j - b0 j) (max (Ideal.sqrt (∑ k : Fin 3, (b1 k - b0 k) * (b1 k - b0 k))) Cert.Spec.eps)) := by
  obtain rfl := h4
  obtain rfl := h2
  obtain rfl : a1 = b1 := funext h1
  obtain rfl : a0 = b0 := funext h0
  rfl

variable (m : (ℓ : Loc nD τ sig) → Buf (Elt Ideal) ℓ)

/-- Channel 0 over the arguments. -/
theorem chan_zero (c : Dev nD) (e : Fin 3200000) :
    Arr.edgeT (Arr.srcA m c) (Arr.dstA m c) (Arr.featA m c) (Arr.w0A m c) (Arr.w1A m c) (ix2 (0 : Fin 4) e)
      = Cert.Spec.msg (m ((c : Thread nD τ).loc main_arg0)) (m ((c : Thread nD τ).loc main_arg1)) (m ((c : Thread nD τ).loc main_arg2)) (m ((c : Thread nD τ).loc main_arg3)) (Cert.Spec.col (m ((c : Thread nD τ).loc main_arg4))) (Cert.Spec.col (m ((c : Thread nD τ).loc main_arg5))) (ix2 e (0 : Fin 4)) := by
  refine (edgeT_zero _ _ _ _ _ e).trans ?_
  refine Eq.trans ?_ (Cert.Spec.msg_zero _ _ _ _ _ _ e).symm
  unfold Cert.Spec.msg0 Cert.Spec.fdst
  exact congrArg₂ (· * ·) (HostPre.w0_apply m c) (HostPre.feat_apply m c e)

/-- Channel `1 + j` over the arguments. -/
theorem chan_succ (c : Dev nD) (j : Fin 3) (e : Fin 3200000) :
    Arr.edgeT (Arr.srcA m c) (Arr.dstA m c) (Arr.featA m c) (Arr.w0A m c) (Arr.w1A m c) (ix2 (⟨j.val + 1, by omega⟩ : Fin 4) e)
      = Cert.Spec.msg (m ((c : Thread nD τ).loc main_arg0)) (m ((c : Thread nD τ).loc main_arg1)) (m ((c : Thread nD τ).loc main_arg2)) (m ((c : Thread nD τ).loc main_arg3)) (Cert.Spec.col (m ((c : Thread nD τ).loc main_arg4))) (Cert.Spec.col (m ((c : Thread nD τ).loc main_arg5))) (ix2 e (⟨j.val + 1, by omega⟩ : Fin 4)) := by
  refine (edgeT_succ _ _ _ _ _ j e).trans ?_
  refine Eq.trans ?_ (Cert.Spec.msg_succ _ _ _ _ _ _ e j).symm
  unfold Cert.Spec.msg1 Cert.Spec.fdst Cert.Spec.den Cert.Spec.sq Cert.Spec.rel
  exact formula_congr
    (a1 := fun k => (V m c main_v15 : Vec Ideal S3x3200000 .f32) (ix2 k e))
    (b1 := fun k => (m ((c : Thread nD τ).loc main_arg0) : Vec Ideal S100000x3 .f32)
      (ix2 (Cert.Spec.node (Cert.Spec.col (m ((c : Thread nD τ).loc main_arg5))) e) k))
    (a0 := fun k => (V m c main_v8 : Vec Ideal S3x3200000 .f32) (ix2 k e))
    (b0 := fun k => (m ((c : Thread nD τ).loc main_arg0) : Vec Ideal S100000x3 .f32)
      (ix2 (Cert.Spec.node (Cert.Spec.col (m ((c : Thread nD τ).loc main_arg4))) e) k))
    (HostPre.w1_apply m c j) (HostPre.feat_apply m c e) (fun k => HostPre.dst_apply m c k e)
    (fun k => HostPre.src_apply m c k e) j

/-- The transposed result array is the message array. -/
theorem msg_eq (c : Dev nD) :
    transpose S3200000x4 [1, 0] (Arr.edgeT (Arr.srcA m c) (Arr.dstA m c) (Arr.featA m c) (Arr.w0A m c) (Arr.w1A m c)) transposes_S4x3200000_S3200000x4_1_0
      = Cert.Spec.msg (m ((c : Thread nD τ).loc main_arg0)) (m ((c : Thread nD τ).loc main_arg1)) (m ((c : Thread nD τ).loc main_arg2)) (m ((c : Thread nD τ).loc main_arg3)) (Cert.Spec.col (m ((c : Thread nD τ).loc main_arg4))) (Cert.Spec.col (m ((c : Thread nD τ).loc main_arg5))) := by
  funext i
  obtain ⟨e, ch, rfl⟩ : ∃ (e : Fin 3200000) (ch : Fin 4), i = ix2 e ch := ⟨i 0, i 1, eq_ix2 i⟩
  refine (transpose_apply [1, 0] _ transposes_S4x3200000_S3200000x4_1_0 (ix2 e ch) (ix2 ch e) (fun b => by
    match b with
    | ⟨0, _⟩ => rfl
    | ⟨1, _⟩ => rfl)).trans ?_
  obtain ⟨n, hn⟩ := ch
  cases n with
  | zero => exact chan_zero m c e
  | succ n => exact chan_succ m c ⟨n, by omega⟩ e

end Cert.KernelIdeal.Msg

end
-- ==== Proof.KernelTail.lean ====
/-
  The idealized kernel's run, read to the specification.

  After the region the program transposes the result array to edges by channels and aggregates it by destination node:
  the same operations the specification's `tail` names. The result array is the message array transposed, so the
  program's result is `tail` of the message array of the arguments, and the arguments end as they were launched.
-/
import proofs.«118592_j34823594836411_1_alg».proof.Proof.KernelMsg
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 1000000 in
/-- The lines after the region leave, in the result buffer, the aggregation of the transposed result array. -/
theorem tail_eq (c : Dev nD) :
    (Pipeline.afterTail₀ cfgs (dats m) 0 (V0 m) [hostOps1] c main_v37 : Vec Ideal S100000x4 .f32)
      = Cert.Spec.tail (transpose S3200000x4 [1, 0] ((dats m 0 c).arrAt 5 cfg0.N : Vec Ideal S4x3200000 .f32) transposes_S4x3200000_S3200000x4_1_0)
          (m ((c : Thread nD τ).loc main_arg5)) := by
  unfold Pipeline.afterTail₀
  simp only [List.flatten_cons, List.flatten_nil, List.append_nil]
  after_results
  have h25 : Pipeline.withArrays (cfgs 0).spec c (V0 m c) (fun w => (dats m 0 c).arrAt w (cfgs 0).N) (Proc.devRef .tc main_v25)
      = (dats m 0 c).arrAt 5 cfg0.N :=
    Pipeline.withArrays_arr spec0 launch0.win.arr_inj c (V0 m c) _ 5
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [h25, h5]
  rfl

/-- The program's result over the arguments. -/
theorem result_eq (c : Dev nD) :
    (Pipeline.afterTail₀ cfgs (dats m) 0 (V0 m) [hostOps1] c main_v37 : Vec Ideal S100000x4 .f32)
      = Cert.Spec.tail (Cert.Spec.msg (m ((c : Thread nD τ).loc main_arg0)) (m ((c : Thread nD τ).loc main_arg1)) (m ((c : Thread nD τ).loc main_arg2)) (m ((c : Thread nD τ).loc main_arg3)) (Cert.Spec.col (m ((c : Thread nD τ).loc main_arg4))) (Cert.Spec.col (m ((c : Thread nD τ).loc main_arg5)))) (m ((c : Thread nD τ).loc main_arg5)) := by
  rw [tail_eq, Arr.final, Msg.msg_eq]

/-- Every weakly fair execution of the idealized kernel's program terminates with the result buffer at the
    specification's value of the arguments, and the arguments unchanged. -/
theorem run : θ_run defs (onTc (τ := τ) (main (F := Ideal))) ⟨m, fun _ => 0, ρ⟩ (fun r => ∀ c : Dev nD,
      r.2.mem ((c.tc : Thread nD τ).loc main_v37) = Cert.Spec.tail (Cert.Spec.msg (m ((c : Thread nD τ).loc main_arg0)) (m ((c : Thread nD τ).loc main_arg1)) (m ((c : Thread nD τ).loc main_arg2)) (m ((c : Thread nD τ).loc main_arg3)) (Cert.Spec.col (m ((c : Thread nD τ).loc main_arg4))) (Cert.Spec.col (m ((c : Thread nD τ).loc main_arg5)))) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.RefValue.lean ====
/-
  The reference program's result, read as the specification's terms.

  The three start-index columns the reference builds (a negative index counted from the end, the vector laid as a
  column) are the specification's column of each edge array. The concatenated array of the four message channels is the
  specification's message, index by index: channel 0 is the left piece of the concatenation, the product of the weight
  and the destination node's feature; channels 1 to 3 are the right piece, the weight times the feature times the
  coordinate of the relative position over the norm bounded below. Each gather of rows reads the operand at the
  clamped start index; the sum of the three squares is the reduction along the coordinate axis started at zero. The
  operations after the messages are the specification's aggregation, term for term.
-/
import proofs.«118592_j34823594836411_1_alg».proof.Defs
import proofs.«118592_j34823594836411_1_alg».proof.Proof.Gen.ReferenceIdeal.Run
import proofs.«118592_j34823594836411_1_alg».proof.Proof.Gen.ReferenceIdeal.Read
import proofs.«118592_j34823594836411_1_alg».proof.Proof.Spec
import proofs.«118592_j34823594836411_1_alg».proof.Proof.LibGatherAxis
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable (x0 : (⟨S100000x3, .f32⟩ : BufTy).Contents (Elt Ideal)) (x1 : (⟨S100000x1, .f32⟩ : BufTy).Contents (Elt Ideal))
  (x2 : (⟨S1, .f32⟩ : BufTy).Contents (Elt Ideal)) (x3 : (⟨S3, .f32⟩ : BufTy).Contents (Elt Ideal))
  (x4 x5 : (⟨S3200000, .i32⟩ : BufTy).Contents (Elt Ideal))

/-! ## The start-index columns -/

theorem col_v5 : Read.val_main_v5 (F := Ideal) x5 = Cert.Spec.col x5 := by
  unfold Read.val_main_v5 Read.val_main_v4 Read.val_main_v1 Read.val_main_v3 Read.val_main_v0 Read.val_main_v2
    Read.val_main_c Read.val_main_c_0 Cert.Spec.col
  rfl
theorem col_v12 : Read.val_main_v12 (F := Ideal) x4 = Cert.Spec.col x4 := by
  unfold Read.val_main_v12 Read.val_main_v11 Read.val_main_v8 Read.val_main_v10 Read.val_main_v7 Read.val_main_v9
    Read.val_main_c_1 Read.val_main_c_2 Cert.Spec.col
  rfl
theorem col_v28 : Read.val_main_v28 (F := Ideal) x5 = Cert.Spec.col x5 := by
  unfold Read.val_main_v28 Read.val_main_v27 Read.val_main_v24 Read.val_main_v26 Read.val_main_v23 Read.val_main_v25
    Read.val_main_c_4 Read.val_main_c_5 Cert.Spec.col
  rfl

/-! ## The messages -/

section Pieces
variable (e : Fin 3200000)

/-- The destination node's row of positions, gathered. -/
theorem v6_at (k : Fin 3) :
    Read.val_main_v6 (F := Ideal) x0 x5 (ix2 e k) = x0 (ix2 (Cert.Spec.node (Cert.Spec.col x5) e) k) := by
  unfold Read.val_main_v6
  rw [col_v5]
  exact Idealize.ShloMosaic.GatherAxis.gather_rows_apply (by decide) _ rfl rfl rfl rfl rfl x0 (Cert.Spec.col x5) e k

/-- The source node's row of positions, gathered. -/
theorem v13_at (k : Fin 3) :
    Read.val_main_v13 (F := Ideal) x0 x4 (ix2 e k) = x0 (ix2 (Cert.Spec.node (Cert.Spec.col x4) e) k) := by
  unfold Read.val_main_v13
  rw [col_v12]
  exact Idealize.ShloMosaic.GatherAxis.gather_rows_apply (by decide) _ rfl rfl rfl rfl rfl x0 (Cert.Spec.col x4) e k

/-- The destination node's feature, gathered. -/
theorem v29_at :
    Read.val_main_v29 (F := Ideal) x1 x5 (ix2 e (0 : Fin 1)) = Cert.Spec.fdst x1 (Cert.Spec.col x5) e := by
  unfold Read.val_main_v29
  rw [col_v28]
  exact Idealize.ShloMosaic.GatherAxis.gather_rows_apply (by decide) _ rfl rfl rfl rfl rfl x1 (Cert.Spec.col x5) e 0

/-- The relative position: destination minus source, coordinate by coordinate. -/
theorem v14_at (k : Fin 3) :
    Read.val_main_v14 (F := Ideal) x0 x4 x5 (ix2 e k) = Cert.Spec.rel x0 (Cert.Spec.col x4) (Cert.Spec.col x5) e k := by
  rw [Read.val_main_v14_apply, v6_at, v13_at]
  rfl

/-- The sum of the three squares: the reduction along the coordinate axis, started at zero. -/
theorem v16_at :
    Read.val_main_v16 (F := Ideal) x0 x4 x5 (ix1 e) = Cert.Spec.sq x0 (Cert.Spec.col x4) (Cert.Spec.col x5) e := by
  rw [Read.val_main_v16_apply]
  show Ideal.ofBits .f32 0x00000000#32
      + ∑ k : Fin 3, Read.val_main_v15 (F := Ideal) x0 x4 x5 (Read.idx_main_v16 (ix1 e) k) = _
  rw [Ideal.ofBits_zero_f32, zero_add]
  unfold Cert.Spec.sq
  refine Finset.sum_congr rfl fun k _ => ?_
  have hk : Read.idx_main_v16 (ix1 e) k = ix2 e k :=
    funext fun a => Fin.ext (by match a with | ⟨0, _⟩ => rfl | ⟨1, _⟩ => rfl)
  rw [hk, Read.val_main_v15_apply, v14_at]
  rfl

/-- The quotient's denominator: the norm, bounded below. -/
theorem v20_at :
    Read.val_main_v20 (F := Ideal) x0 x4 x5 (ix2 e (0 : Fin 1))
      = Cert.Spec.den x0 (Cert.Spec.col x4) (Cert.Spec.col x5) e := by
  have h17 : Read.idx_main_v17 (ix2 e (0 : Fin 1)) = ix1 e :=
    funext fun a => Fin.ext (by match a with | ⟨0, _⟩ => rfl)
  rw [Read.val_main_v20_apply, Read.val_main_v18_apply, Read.val_main_v17_apply, Read.val_main_v19_apply,
    Read.val_main_cst_3_apply, h17, v16_at]
  rfl

end Pieces

theorem ref_msg : Read.val_main_v38 (F := Ideal) x0 x1 x2 x3 x4 x5
    = Cert.Spec.msg x0 x1 x2 x3 (Cert.Spec.col x4) (Cert.Spec.col x5) := by
  funext i
  obtain ⟨e, ch, rfl⟩ : ∃ (e : Fin 3200000) (ch : Fin 4), i = ix2 e ch := ⟨i 0, i 1, eq_ix2 i⟩
  unfold Read.val_main_v38
  match ch with
  | ⟨0, _⟩ =>
    -- channel 0: the left piece, the weight times the destination node's feature
    refine (concatenate_pair_apply_left 1 _ _ concatenates_S3200000x1_S3200000x3_S3200000x4_d1 _ rfl
      (ix2 e (0 : Fin 1)) (fun b => by match b with | ⟨0, _⟩ => rfl | ⟨1, _⟩ => rfl)).trans ?_
    refine Eq.trans ?_ (Cert.Spec.msg_zero x0 x1 x2 x3 (Cert.Spec.col x4) (Cert.Spec.col x5) e).symm
    have h30 : Read.idx_main_v30 (Read.idx_main_v31 (ix2 e (0 : Fin 1))) = ix1 (0 : Fin 1) :=
      funext fun a => Fin.ext (by match a with | ⟨0, _⟩ => rfl)
    rw [Read.val_main_v32_apply, Read.val_main_v31_apply, Read.val_main_v30_apply, v29_at, h30]
    rfl
  | ⟨j + 1, hj⟩ =>
    -- channel 1 + j: the right piece, the weight times the feature times the normalised coordinate
    have hj3 : j < 3 := by omega
    refine (concatenate_pair_apply_right 1 _ _ concatenates_S3200000x1_S3200000x3_S3200000x4_d1 _ rfl rfl
      (ix2 e (⟨j, hj3⟩ : Fin 3)) (fun b hb => by
        match b with
        | ⟨0, _⟩ => rfl
        | ⟨1, _⟩ => exact absurd rfl hb) rfl).trans ?_
    refine Eq.trans ?_ (Cert.Spec.msg_succ x0 x1 x2 x3 (Cert.Spec.col x4) (Cert.Spec.col x5) e ⟨j, hj3⟩).symm
    have h35 : Read.idx_main_v35 (Read.idx_main_v36 (ix2 e (⟨j, hj3⟩ : Fin 3))) = ix1 (⟨j, hj3⟩ : Fin 3) :=
      funext fun a => Fin.ext (by match a with | ⟨0, _⟩ => rfl)
    have h33 : Read.idx_main_v33 (ix2 e (⟨j, hj3⟩ : Fin 3)) = ix2 e (0 : Fin 1) :=
      funext fun a => Fin.ext (by match a with | ⟨0, _⟩ => rfl | ⟨1, _⟩ => rfl)
    have h21 : Read.idx_main_v21 (ix2 e (⟨j, hj3⟩ : Fin 3)) = ix2 e (0 : Fin 1) :=
      funext fun a => Fin.ext (by match a with | ⟨0, _⟩ => rfl | ⟨1, _⟩ => rfl)
    rw [Read.val_main_v37_apply, Read.val_main_v36_apply, Read.val_main_v35_apply, Read.val_main_v34_apply,
      Read.val_main_v33_apply, Read.val_main_v22_apply, Read.val_main_v21_apply, h35, h33, h21, v29_at, v14_at, v20_at]
    rfl

/-! ## The aggregation -/

theorem ref_tail : Read.val_main_v49 (F := Ideal) x0 x1 x2 x3 x4 x5
    = Cert.Spec.tail (Read.val_main_v38 (F := Ideal) x0 x1 x2 x3 x4 x5) x5 := by
  unfold Read.val_main_v49 Read.val_main_v48 Read.val_main_v47 Read.val_main_v46 Read.val_main_v45 Read.val_main_v44
    Read.val_main_v43 Read.val_main_v42 Read.val_main_v41 Read.val_main_v40 Read.val_main_v39
    Read.val_main_cst_6 Read.val_main_cst_7 Read.val_main_cst_8 Read.val_main_cst_9
    Cert.Spec.tail Cert.Spec.scat4 Cert.Spec.scat1
  rfl

/-! ## The run -/

/-- On every device, from any memory with zero counters: every weakly fair execution of the reference terminates with
    its result the specification's aggregation of the specification's messages, over the arguments' launch contents,
    and the arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v49)
        = Cert.Spec.tail
            (Cert.Spec.msg (m ((c.tc : Thread nD τ).loc main_arg0)) (m ((c.tc : Thread nD τ).loc main_arg1))
              (m ((c.tc : Thread nD τ).loc main_arg2)) (m ((c.tc : Thread nD τ).loc main_arg3))
              (Cert.Spec.col (m ((c.tc : Thread nD τ).loc main_arg4))) (Cert.Spec.col (m ((c.tc : Thread nD τ).loc main_arg5))))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono (fun _ h c => by
    obtain ⟨h49, h0, h1, h2, h3, h4, h5⟩ := h c
    refine ⟨?_, h0, h1, h2, h3, h4, h5⟩
    refine h49.trans ?_
    refine (Read.val_main_v49_eq (F := Ideal) m c).trans ?_
    refine (ref_tail _ _ _ _ _ _).trans ?_
    rw [ref_msg])
    (Cert.ReferenceIdeal.Value.run (F := Ideal) m ρ)

end Cert.ReferenceIdeal.RefValue

end
-- ==== Proof.lean ====
/-
  The two programs compute, per edge, a four-channel message from the positions of the edge's endpoints and the
  destination node's feature — `w0 · f` and `w1[j] · (f · rel j / max ‖rel‖ eps)` with `rel` the destination's position
  minus the source's — and then average the messages over each node's incoming edges. The kernel gathers the
  transposed arrays, computes the messages in tiles of 80000 edges with the channels as rows, and transposes back; the
  reference computes them with the channels as columns and concatenates. Both read an endpoint through the same
  start-index column with the same clamp, both take the same sum of three squares (in the extended reals a sum does
  not depend on its order or on a leading zero), and both end with the same scatter-add, count, maximum with one and
  quotient. So both results are `Spec.tail (Spec.msg …)` of the arguments, and are equal when the arguments agree.
  The frames of the two kernel programs are the generated ones; the reference's frame is its run with the result
  dropped; the idealization rewrote nothing, so `preserves` is trivial.
-/
import proofs.«118592_j34823594836411_1_alg».proof.Defs
import proofs.«118592_j34823594836411_1_alg».proof.Proof.Gen.Kernel
import proofs.«118592_j34823594836411_1_alg».proof.Proof.Gen.Kernel.Skeleton
import proofs.«118592_j34823594836411_1_alg».proof.Proof.Gen.Kernel.Launch
import proofs.«118592_j34823594836411_1_alg».proof.Proof.Gen.Kernel.Points
import proofs.«118592_j34823594836411_1_alg».proof.Proof.Gen.Kernel.Frame
import proofs.«118592_j34823594836411_1_alg».proof.Proof.Gen.KernelIdeal
import proofs.«118592_j34823594836411_1_alg».proof.Proof.Gen.KernelIdeal.Skeleton
import proofs.«118592_j34823594836411_1_alg».proof.Proof.Gen.KernelIdeal.Launch
import proofs.«118592_j34823594836411_1_alg».proof.Proof.Gen.KernelIdeal.Points
import proofs.«118592_j34823594836411_1_alg».proof.Proof.Gen.KernelIdeal.Frame
import proofs.«118592_j34823594836411_1_alg».proof.Proof.Gen.ReferenceIdeal
import proofs.«118592_j34823594836411_1_alg».proof.Proof.Gen.ReferenceIdeal.Run
import proofs.«118592_j34823594836411_1_alg».proof.Proof.Gen.Pre_finite_inputs
import proofs.«118592_j34823594836411_1_alg».proof.Proof.KernelTail
import proofs.«118592_j34823594836411_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification's value of their own arguments; the arguments agree. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
